-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x64 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000 .f32) (main_arg2 : FVec F S64x64 .f32) (main_arg3 : FVec F S64 .f32) (main_arg4 : FVec F S64x64 .f32) (main_arg5 : FVec F S64 .f32) (main_arg6 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg1
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S20000x64 : Shape := ⟨2, ![20000, 64]⟩
abbrev S20000x1 : Shape := ⟨2, ![20000, 1]⟩
abbrev S1x64 : Shape := ⟨2, ![1, 64]⟩
abbrev S10000x64 : Shape := ⟨2, ![10000, 64]⟩

abbrev nBuf : Space → Nat
  | .hbm => 44
  | .vmem => 24
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | .hbm, ⟨22, _⟩ => ⟨S_, .f32⟩
  | .hbm, ⟨23, _⟩ => ⟨S50000x64, .f32⟩
  | .hbm, ⟨24, _⟩ => ⟨S800000x1, .i32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S1x64, .f32⟩
  | .hbm, ⟨43, _⟩ => ⟨S50000x64, .f32⟩
  | .local _ .vmem, ⟨0, _⟩ => ⟨S20000x64, .f32⟩
  | .local _ .vmem, ⟨1, _⟩ => ⟨S20000x64, .f32⟩
  | .local _ .vmem, ⟨2, _⟩ => ⟨S20000x1, .f32⟩
  | .local _ .vmem, ⟨3, _⟩ => ⟨S20000x1, .f32⟩
  | .local _ .vmem, ⟨4, _⟩ => ⟨S20000x64, .f32⟩
  | .local _ .vmem, ⟨5, _⟩ => ⟨S20000x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S20000x64, .f32⟩
  | .local _ .vmem, ⟨13, _⟩ => ⟨S20000x64, .f32⟩
  | .local _ .vmem, ⟨14, _⟩ => ⟨S20000x1, .f32⟩
  | .local _ .vmem, ⟨15, _⟩ => ⟨S20000x1, .f32⟩
  | .local _ .vmem, ⟨16, _⟩ => ⟨S20000x64, .f32⟩
  | .local _ .vmem, ⟨17, _⟩ => ⟨S20000x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S20000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S20000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S800000_S800000x1 : S800000.ShapeCasts S800000x1
  bcast_S_S800000 : S_.BroadcastsInDim S800000 (![] : Fin 0 → Fin S800000.rank)
  bcast_S800000_S800000x1_0 : S800000.BroadcastsInDim S800000x1 (![0] : Fin 1 → Fin S800000x1.rank)
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S50000x64 : S_.BroadcastsInDim S50000x64 (![] : Fin 0 → Fin S50000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S800000x64.size a
  hwx0_0 : ∀ i : grid0.Coords, EltTy.bits .f32 = 32 ∨ (Rect.block (s := S800000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S800000x1.size a
  hwx0_1 : ∀ i : grid0.Coords, EltTy.bits .f32 = 32 ∨ (Rect.block (s := S800000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S800000x64.size a
  hwx0_2 : ∀ i : grid0.Coords, EltTy.bits .f32 = 32 ∨ (Rect.block (s := S800000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x64.size a ≤ S800000x64.size a
  hwx2_0 : ∀ i : grid2.Coords, EltTy.bits .f32 = 32 ∨ (Rect.block (s := S800000x64) S20000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S20000x1.size a ≤ S800000x1.size a
  hwx2_1 : ∀ i : grid2.Coords, EltTy.bits .f32 = 32 ∨ (Rect.block (s := S800000x1) S20000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x64.size a ≤ S800000x64.size a
  hwx2_2 : ∀ i : grid2.Coords, EltTy.bits .f32 = 32 ∨ (Rect.block (s := S800000x64) S20000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S50000x64.size a
  hwx3_3 : ∀ i : grid3.Coords, EltTy.bits .f32 = 32 ∨ (Rect.block (s := S50000x64) S10000x64.size (cc3_transform_3 i) (hinb3_3 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v11) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S20000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S20000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S20000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v28) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S2x800000 : Shape := ⟨2, ![2, 800000]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩
abbrev S1x64 : Shape := ⟨2, ![1, 64]⟩

abbrev nBuf : Space → Nat
  | .hbm => 54
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S800000x1, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S800000x64, .f32⟩
  | .hbm, ⟨22, _⟩ => ⟨S800000x64, .f32⟩
  | .hbm, ⟨23, _⟩ => ⟨S_, .f32⟩
  | .hbm, ⟨24, _⟩ => ⟨S50000x64, .f32⟩
  | .hbm, ⟨25, _⟩ => ⟨S800000x1, .i32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S50000x64, .f32⟩
  | .hbm, ⟨33, _⟩ => ⟨S50000x64, .f32⟩
  | .hbm, ⟨34, _⟩ => ⟨S800000x1, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x64, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S50000x64, .f32⟩
  | .hbm, ⟨51, _⟩ => ⟨S1x64, .f32⟩
  | .hbm, ⟨52, _⟩ => ⟨S50000x64, .f32⟩
  | .hbm, ⟨53, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_c_1 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Spec.lean ====
/-
  What each stage of the two-layer graph convolution computes, index by index over the extended reals.

  One layer is: gather the source node's feature row for every edge, scale each gathered row by its edge's weight,
  sum the scaled rows into their destination nodes, then apply a dense affine map (a 64-term dot product per output
  entry plus a bias), with a clamp at zero after the first layer only. The gather and the accumulating scatter are
  the same operations of the same index arrays in both programs, so they are never opened; what differs between the
  programs is how the three stages below are laid out, and these are the functions both sides are shown equal to.
-/
import Idealize.ShloMosaic.PureOps.Ideal
import Idealize.ShloMosaic.Lib.ValueIdx

noncomputable section

open scoped BigOperators

namespace Cert.Spec

open Idealize.ShloMosaic Idealize.ShloMosaic.ValueIdx

/-- One row per edge, 64 features. -/
abbrev SE64 : Shape := ⟨2, ![800000, 64]⟩
/-- One weight per edge, as a column. -/
abbrev SE1 : Shape := ⟨2, ![800000, 1]⟩
/-- One row per node, 64 features. -/
abbrev SN64 : Shape := ⟨2, ![50000, 64]⟩
/-- A layer's 64 × 64 weight matrix. -/
abbrev SD64 : Shape := ⟨2, ![64, 64]⟩
/-- A layer's bias, as a row. -/
abbrev S1D : Shape := ⟨2, ![1, 64]⟩

/-- One entry per edge. -/
abbrev SE : Shape := ⟨1, ![800000]⟩
/-- One entry per feature. -/
abbrev SD : Shape := ⟨1, ![64]⟩

/-- The edge weights laid out as a column: entry (e, 0) is the e-th weight. -/
def colOf (a : SE.Idx → EReal) : SE1.Idx → EReal := fun i => a (ix1 (i 0))

/-- A bias laid out as a row: entry (0, j) is the j-th bias. -/
def rowOf (b : SD.Idx → EReal) : S1D.Idx → EReal := fun i => b (ix1 (i 1))

/-- Every gathered row times its edge's weight: entry (e, d) is g(e, d) · w(e, 0). -/
def scaleRows (g : SE64.Idx → EReal) (w : SE1.Idx → EReal) : SE64.Idx → EReal :=
  fun i => g i * w (ix2 (i 0) (0 : Fin 1))

/-- The dense layer: entry (n, j) is Σ_k A(n, k) · W(k, j), plus the bias b(0, j). -/
def affine (A : SN64.Idx → EReal) (W : SD64.Idx → EReal) (b : S1D.Idx → EReal) : SN64.Idx → EReal :=
  fun i => (∑ k : Fin 64, A (ix2 (i 0) k) * W (ix2 k (i 1))) + b (ix2 (0 : Fin 1) (i 1))

/-- The dense layer followed by the clamp at zero. -/
def affineRelu (A : SN64.Idx → EReal) (W : SD64.Idx → EReal) (b : S1D.Idx → EReal) : SN64.Idx → EReal :=
  fun i => max (affine A W b i) 0

/-- The two layers, over an abstract row gather and an abstract accumulating scatter (the same pair in both layers):
    aggregate the weighted gathered rows, apply the first dense map with its clamp, aggregate again from the hidden
    features, apply the second dense map. -/
def network (gath : (SN64.Idx → EReal) → (SE64.Idx → EReal)) (agg : (SE64.Idx → EReal) → (SN64.Idx → EReal))
    (X : SN64.Idx → EReal) (a : SE.Idx → EReal) (W₁ : SD64.Idx → EReal) (b₁ : SD.Idx → EReal)
    (W₂ : SD64.Idx → EReal) (b₂ : SD.Idx → EReal) : SN64.Idx → EReal :=
  affine (agg (scaleRows (gath (affineRelu (agg (scaleRows (gath X) (colOf a))) W₁ (rowOf b₁))) (colOf a))) W₂ (rowOf b₂)

theorem scaleRows_apply (g : SE64.Idx → EReal) (w : SE1.Idx → EReal) (e : Fin 800000) (d : Fin 64) :
    scaleRows g w (ix2 e d) = g (ix2 e d) * w (ix2 e (0 : Fin 1)) := rfl

theorem affine_apply (A : SN64.Idx → EReal) (W : SD64.Idx → EReal) (b : S1D.Idx → EReal) (n : Fin 50000) (j : Fin 64) :
    affine A W b (ix2 n j) = (∑ k : Fin 64, A (ix2 n k) * W (ix2 k j)) + b (ix2 (0 : Fin 1) j) := rfl

theorem affineRelu_apply (A : SN64.Idx → EReal) (W : SD64.Idx → EReal) (b : S1D.Idx → EReal) (n : Fin 50000) (j : Fin 64) :
    affineRelu A W b (ix2 n j) = max ((∑ k : Fin 64, A (ix2 n k) * W (ix2 k j)) + b (ix2 (0 : Fin 1) j)) 0 := rfl

end Cert.Spec

end
-- ==== Proof.EdgeScale1.lean ====
/-
  The first layer's edge scaling, read as one array.

  The kernel walks the 800000 edges in 40 blocks of 20000. At block t it holds rows 20000·t … 20000·t + 19999 of the
  gathered features and of the weight column, multiplies every gathered row by its edge's weight, and writes the
  block back to the same rows. The blocks tile the array, so after the last write-back the whole array is
  `Spec.scaleRows` of the gathered features and the weight column as the region found them.
-/
import proofs.«163131_j16776142258589_1_alg».proof.Proof.Gen.KernelIdeal.Frame
import proofs.«163131_j16776142258589_1_alg».proof.Proof.Spec
import Idealize.ShloMosaic.Lib.Pipeline.Value
import Idealize.ShloMosaic.Lib.ValueIdx

set_option maxRecDepth 16384

noncomputable section

namespace Cert.KernelIdeal.RunValue.EdgeScale1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- One entry of a block: the gathered entry times the weight of its row. -/
theorem pay_apply (x0 : Vec Ideal S20000x64 .f32) (x1 : Vec Ideal S20000x1 .f32) (p : Fin 20000) (q : Fin 64) :
    k0_pay1 (F := Ideal) x0 x1 (ix2 p q) = x0 (ix2 p q) * x1 (ix2 p (0 : Fin 1)) := by
  unfold k0_pay1
  rw [mulf_apply, shapeCast_self, shapeCast_self]
  refine congrArg (x0 (ix2 p q) * ·) ?_
  exact broadcastTo_apply x1 broadcasts_S20000x1_S20000x64 (ix2 p q) (ix2 p (0 : Fin 1)) (fun a => match a with
    | ⟨0, _⟩ => by show p.val = if (20000 : Nat) = 1 then 0 else p.val; rw [if_neg (by decide)]
    | ⟨1, _⟩ => by show 0 = if (1 : Nat) = 1 then 0 else q.val; rw [if_pos rfl])

/-- The same entry against the two arrays the block was cut from: if the block's entry j is the array's entry i, and
    the weight block's row of j is the weight column's row of i, the stored entry is `scaleRows` at i. -/
theorem entry_eq (g : Spec.SE64.Idx → EReal) (w : Spec.SE1.Idx → EReal)
    (x0 : Vec Ideal S20000x64 .f32) (x1 : Vec Ideal S20000x1 .f32) (j : S20000x64.Idx) (i : Spec.SE64.Idx)
    (h0 : x0 j = g i) (h1 : x1 (ix2 (j 0) (0 : Fin 1)) = w (ix2 (i 0) (0 : Fin 1))) :
    k0_pay1 (F := Ideal) x0 x1 j = Spec.scaleRows g w i := by
  obtain ⟨p, q, rfl⟩ : ∃ (p : Fin 20000) (q : Fin 64), j = ix2 p q := ⟨j 0, j 1, eq_ix2 j⟩
  rw [pay_apply]
  unfold Spec.scaleRows
  rw [h0]
  exact congrArg (g i * ·) h1

/-- The printed index maps over the 40 grid points: all three windows sit at block row t, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every block row below 40 is some grid point's. -/
theorem idx_onto : ∀ r : Fin 40, ∃ t : Fin cfg0.N, t.val = r.val :=
  (by decide +kernel : ∀ r : Fin 40, ∃ t : Fin grid0.N, t.val = r.val)

/-- What grid point t writes back is block t of `scaleRows` of the region's two input arrays. -/
theorem flushed_eq (c : Dev nD) (t : Fin cfg0.N) :
    (dat0 V c).flushed 2 t
      = ((cfg0.win 2).blk t).view.read (Elt Ideal) (Spec.scaleRows (V c main_v11) (V c main_v4)) := by
  show (cfg0.win 2).cut (grid0.coords t) ((dat0 V c).after 2 t) = _
  rw [after0_2]
  unfold out0_2
  rw [View.canon_unit_zero origin_eq]
  simp only [View.ld_unit_zero (S := S20000x64) origin_eq, View.ld_unit_zero (S := S20000x1) origin_eq]
  obtain ⟨e00, e01, e10, e11, e20, e21⟩ := idx_facts t
  funext j
  refine entry_eq (V c main_v11) (V c main_v4) (iblk0 V c 0 t) (iblk0 V c 1 t) j (((cfg0.win 2).blk t).view.emb j) ?_ ?_
  · show V c main_v11 (((cfg0.win 0).blk t).view.emb j) = V c main_v11 (((cfg0.win 2).blk t).view.emb j)
    refine congrArg (V c main_v11) (funext fun a => Fin.ext ?_)
    match a with
    | ⟨0, _⟩ => show win0_0.index t (0 : Fin 2) * 20000 + 1 * (j 0).val = win0_2.index t (0 : Fin 2) * 20000 + 1 * (j 0).val; omega
    | ⟨1, _⟩ => show win0_0.index t (1 : Fin 2) * 64 + 1 * (j 1).val = win0_2.index t (1 : Fin 2) * 64 + 1 * (j 1).val; omega
  · show V c main_v4 (((cfg0.win 1).blk t).view.emb (ix2 (j 0) (0 : Fin 1))) = V c main_v4 (ix2 ((((cfg0.win 2).blk t).view.emb j) 0) (0 : Fin 1))
    refine congrArg (V c main_v4) (funext fun a => Fin.ext ?_)
    match a with
    | ⟨0, _⟩ => show win0_1.index t (0 : Fin 2) * 20000 + 1 * (j 0).val = win0_2.index t (0 : Fin 2) * 20000 + 1 * (j 0).val; omega
    | ⟨1, _⟩ => show win0_1.index t (1 : Fin 2) * 1 + 1 * 0 = 0; omega

/-- An entry of the array is in block t iff its row is among the block's 20000 rows and its column among the 64. -/
theorem mem_blk (t : Fin cfg0.N) (i : S800000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v12).slice (win0_2.rect t)).set ↔ _
  rw [View.set_slice_whole, Rect.mem_set_unit]
  exact Iff.rfl

/-- Every entry of the array is in the block of the grid point row / 20000. -/
theorem cover (i : S800000x64.Idx) : ∃ t : Fin cfg0.N, (cfg0.win 2).flush t = true ∧ i ∈ ((cfg0.win 2).blk t).view.set := by
  have hi0 : (i 0).val < 800000 := (i 0).isLt
  have hi1 : (i 1).val < 64 := (i 1).isLt
  obtain ⟨t, ht⟩ := idx_onto ⟨(i 0).val / 20000, by omega⟩
  have ht' : t.val = (i 0).val / 20000 := ht
  obtain ⟨e00, e01, e10, e11, e20, e21⟩ := idx_facts t
  refine ⟨t, flush0_2 t, ?_⟩
  rw [mem_blk]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- After the region the scaled-message array is `scaleRows` of the gathered features and the weight column. -/
theorem final (c : Dev nD) :
    (dat0 V c).arrAt 2 cfg0.N = Spec.scaleRows (V c main_v11) (V c main_v4) :=
  (dat0 V c).arrAt_eq_of_cover 2 (Spec.scaleRows (V c main_v11) (V c main_v4)) (fun t _ => flushed_eq V c t) cover

end Cert.KernelIdeal.RunValue.EdgeScale1

end
-- ==== Proof.AffinePayload.lean ====
/-
  The dense layer's block: what one grid point of the affine kernels stores, read at an entry.

  A block holds 10000 node rows. The body rounds the rows and the weight matrix to a narrower float format (the
  identity on extended reals), multiplies them into a zero accumulator — so entry (p, q) of the product is the plain
  64-term sum Σ_k x(p, k) · w(k, q), the zero contributing nothing —, adds the bias row broadcast down the block,
  and, in the first layer only, clamps at zero.
-/
import proofs.«163131_j16776142258589_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.RunValue

open Cert.KernelIdeal Cert.KernelIdeal.Gen Idealize.ShloMosaic Idealize.ShloMosaic.ValueIdx

/-! ## The product's operand indices

The dimension numbers contract the left operand's axis 1 with the right operand's axis 0 and have no batch axis. So
at output index `i` and contraction index `c` the left operand is read at `(i 0, c 0)` and the right at `(c 0, i 1)`. -/

/-- The left operand's row is the output's row. -/
theorem prod_lhs_row (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl

/-- The left operand's column is the contracted coordinate. -/
theorem prod_lhs_col (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c

/-- The right operand's row is the contracted coordinate. -/
theorem prod_rhs_row (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c

/-- The right operand's column is the output's column. -/
theorem prod_rhs_col (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- Entry (p, q) of the product into the zero accumulator: the 64-term sum of the row of `a` against the column of `w`. -/
theorem prod_zero_apply {φ₁ φ₂ : FTy} (a : FVec Ideal S10000x64 φ₁) (w : FVec Ideal S64x64 φ₂) (p : Fin 10000) (q : Fin 64) :
    matmul (F := Ideal) dot_S10000x64_S64x64_S10000x64_1_0_0_1_n_n none a w (constant (F := Ideal) S10000x64 .f32 0x00000000#32) (ix2 p q)
      = ∑ k : Fin 64, a (ix2 p k) * w (ix2 k q) := by
  refine (Ideal.matmul_constant_zero_apply dot_S10000x64_S64x64_S10000x64_1_0_0_1_n_n none a w (ix2 p q)).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q)
      ((ValueIdx.contrEquiv1 dot_S10000x64_S64x64_S10000x64_1_0_0_1_n_n 64 rfl rfl).symm k) = ix2 p k :=
    funext fun d => Fin.ext (by
      match d with
      | ⟨0, _⟩ => exact prod_lhs_row _ _
      | ⟨1, _⟩ => exact (prod_lhs_col _ _).trans hk)
  have er : dot_S10000x64_S64x64_S10000x64_1_0_0_1_n_n.rhsIdx (ix2 p q)
      ((ValueIdx.contrEquiv1 dot_S10000x64_S64x64_S10000x64_1_0_0_1_n_n 64 rfl rfl).symm k) = ix2 k q :=
    funext fun d => Fin.ext (by
      match d with
      | ⟨0, _⟩ => exact (prod_rhs_row _ _).trans hk
      | ⟨1, _⟩ => exact prod_rhs_col _ _)
  rw [el, er]

/-! ## The bias row broadcast down the block -/

/-- The bias row `[1, 64]` broadcast to `[10000, 64]`, read at (p, q), is the row's entry (0, q). -/
theorem bias_bcast_apply (b : Vec Ideal S1x64 .f32) (p : Fin 10000) (q : Fin 64) :
    broadcastTo S10000x64 b broadcasts_S1x64_S10000x64 (ix2 p q) = b (ix2 (0 : Fin 1) q) := by
  refine broadcastTo_apply b broadcasts_S1x64_S10000x64 (ix2 p q) (ix2 (0 : Fin 1) q) fun a => ?_
  match a with
  | ⟨0, _⟩ => rfl
  | ⟨1, _⟩ => rfl

/-! ## The two blocks -/

/-- The second layer's block (no clamp): entry (p, q) is Σ_k x(p, k) · w(k, q) + b(0, q). -/
theorem affine_pay_apply (x0 : Vec Ideal S10000x64 .f32) (x1 : Vec Ideal S64x64 .f32) (x2 : Vec Ideal S1x64 .f32)
    (p : Fin 10000) (q : Fin 64) :
    k3_pay1 (F := Ideal) x0 x1 x2 (ix2 p q)
      = (∑ k : Fin 64, x0 (ix2 p k) * x1 (ix2 k q)) + x2 (ix2 (0 : Fin 1) q) := by
  unfold k3_pay1
  rw [shapeCast_self, shapeCast_self, addf_apply, prod_zero_apply, bias_bcast_apply]
  rfl

/-- The first layer's block: the same entry clamped at zero. -/
theorem affineRelu_pay_apply (x0 : Vec Ideal S10000x64 .f32) (x1 : Vec Ideal S64x64 .f32) (x2 : Vec Ideal S1x64 .f32)
    (p : Fin 10000) (q : Fin 64) :
    k1_pay1 (F := Ideal) x0 x1 x2 (ix2 p q)
      = max ((∑ k : Fin 64, x0 (ix2 p k) * x1 (ix2 k q)) + x2 (ix2 (0 : Fin 1) q)) 0 := by
  unfold k1_pay1
  rw [maximumf_apply, broadcast_apply]
  -- the clamp's constant: the zero word read as an extended real
  have hz : (Scalar.ofBits .f32 0x00000000#32 : Ideal .f32) = 0 := Ideal.ofBits_zero_f32
  rw [hz]
  -- what is clamped is the second layer's block, term for term
  exact congrArg (max · 0) (affine_pay_apply x0 x1 x2 p q)

end Cert.KernelIdeal.RunValue

end
-- ==== Proof.Dense1.lean ====
/-
  The first layer's dense map, read as one array.

  The kernel walks the 50000 node rows in 5 blocks of 10000. At block t it holds rows 10000·t … 10000·t + 9999 of the
  aggregated features together with the whole 64 × 64 weight matrix and the whole bias row; every entry it stores
  is the 64-term dot product of a node row with a weight column, plus that column's bias, clamped at zero; and it
  writes the block back to the same rows. The blocks tile the array, so after the last write-back the whole array is
  `Spec.affineRelu` of the aggregated features, the weights and the bias as the region found them.
-/
import proofs.«163131_j16776142258589_1_alg».proof.Proof.Gen.KernelIdeal.Frame
import proofs.«163131_j16776142258589_1_alg».proof.Proof.Spec
import proofs.«163131_j16776142258589_1_alg».proof.Proof.AffinePayload
import Idealize.ShloMosaic.Lib.Pipeline.Value
import Idealize.ShloMosaic.Lib.ValueIdx

set_option maxRecDepth 16384

noncomputable section

open scoped BigOperators

namespace Cert.KernelIdeal.RunValue.Dense1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- One stored entry against the three arrays the blocks were cut from: if row (j 0) of the node block is row (i 0)
    of the node array, column (j 1) of the weight block is column (i 1) of the weight matrix, and the bias block's
    entry over (j 1) is the bias row's over (i 1), the stored entry is the layer's value at i. -/
theorem entry_eq (A : Spec.SN64.Idx → EReal) (W : Spec.SD64.Idx → EReal) (b : Spec.S1D.Idx → EReal)
    (x0 : Vec Ideal S10000x64 .f32) (x1 : Vec Ideal S64x64 .f32) (x2 : Vec Ideal S1x64 .f32)
    (j : S10000x64.Idx) (i : Spec.SN64.Idx)
    (h0 : ∀ k : Fin 64, x0 (ix2 (j 0) k) = A (ix2 (i 0) k))
    (h1 : ∀ k : Fin 64, x1 (ix2 k (j 1)) = W (ix2 k (i 1)))
    (h2 : x2 (ix2 (0 : Fin 1) (j 1)) = b (ix2 (0 : Fin 1) (i 1))) :
    k1_pay1 (F := Ideal) x0 x1 x2 j = Spec.affineRelu A W b i := by
  obtain ⟨p, q, rfl⟩ : ∃ (p : Fin 10000) (q : Fin 64), j = ix2 p q := ⟨j 0, j 1, eq_ix2 j⟩
  have h0' : ∀ k : Fin 64, x0 (ix2 p k) = A (ix2 (i 0) k) := h0
  have h1' : ∀ k : Fin 64, x1 (ix2 k q) = W (ix2 k (i 1)) := h1
  have h2' : x2 (ix2 (0 : Fin 1) q) = b (ix2 (0 : Fin 1) (i 1)) := h2
  rw [affineRelu_pay_apply]
  unfold Spec.affineRelu Spec.affine
  rw [h2', Finset.sum_congr rfl fun k _ => by rw [h0' k, h1' k]]

/-- The printed index maps over the 5 grid points: the node rows and the output sit at block row t; the weight
    matrix and the bias row are the same whole block at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Every block row below 5 is some grid point's. -/
theorem idx_onto : ∀ r : Fin 5, ∃ t : Fin cfg1.N, t.val = r.val :=
  (by decide +kernel : ∀ r : Fin 5, ∃ t : Fin grid1.N, t.val = r.val)

/-- What grid point t writes back is block t of the layer's value on the region's three input arrays. -/
theorem flushed_eq (c : Dev nD) (t : Fin cfg1.N) :
    (dat1 V c).flushed 3 t
      = ((cfg1.win 3).blk t).view.read (Elt Ideal) (Spec.affineRelu (V c main_v15) (V c main_arg2) (V c main_v16)) := by
  show (cfg1.win 3).cut (grid1.coords t) ((dat1 V c).after 3 t) = _
  rw [after1_3]
  unfold out1_3
  rw [View.canon_unit_zero origin_eq]
  simp only [View.ld_unit_zero (S := S10000x64) origin_eq, View.ld_unit_zero (S := S64x64) origin_eq, View.ld_unit_zero (S := S1x64) origin_eq]
  obtain ⟨e00, e01, e10, e11, e20, e21, e30, e31⟩ := idx_facts t
  funext j
  refine entry_eq (V c main_v15) (V c main_arg2) (V c main_v16) (iblk1 V c 0 t) (iblk1 V c 1 t) (iblk1 V c 2 t) j (((cfg1.win 3).blk t).view.emb j) ?_ ?_ ?_
  · intro k
    show V c main_v15 (((cfg1.win 0).blk t).view.emb (ix2 (j 0) k)) = V c main_v15 (ix2 ((((cfg1.win 3).blk t).view.emb j) 0) k)
    refine congrArg (V c main_v15) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  · intro k
    show V c main_arg2 (((cfg1.win 1).blk t).view.emb (ix2 k (j 1))) = V c main_arg2 (ix2 k ((((cfg1.win 3).blk t).view.emb j) 1))
    refine congrArg (V c main_arg2) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_3.index t (1 : Fin 2) * 64 + 1 * (j 1).val; omega
  · show V c main_v16 (((cfg1.win 2).blk t).view.emb (ix2 (0 : Fin 1) (j 1))) = V c main_v16 (ix2 (0 : Fin 1) ((((cfg1.win 3).blk t).view.emb j) 1))
    refine congrArg (V c main_v16) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An entry of the array is in block t iff its row is among the block's 10000 rows and its column among the 64. -/
theorem mem_blk (t : Fin cfg1.N) (i : S50000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v17).slice (win1_3.rect t)).set ↔ _
  rw [View.set_slice_whole, Rect.mem_set_unit]
  exact Iff.rfl

/-- Every entry of the array is in the block of the grid point row / 10000. -/
theorem cover (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e00, e01, e10, e11, e20, e21, e30, e31⟩ := idx_facts t
  refine ⟨t, flush1_3 t, ?_⟩
  rw [mem_blk]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- After the region the hidden-feature array is the layer's value on the aggregated features, weights and bias. -/
theorem final (c : Dev nD) :
    (dat1 V c).arrAt 3 cfg1.N = Spec.affineRelu (V c main_v15) (V c main_arg2) (V c main_v16) :=
  (dat1 V c).arrAt_eq_of_cover 3 (Spec.affineRelu (V c main_v15) (V c main_arg2) (V c main_v16)) (fun t _ => flushed_eq V c t) cover

end Cert.KernelIdeal.RunValue.Dense1

end
-- ==== Proof.EdgeScale2.lean ====
/-
  The second layer's edge scaling, read as one array.

  The kernel walks the 800000 edges in 40 blocks of 20000. At block t it holds rows 20000·t … 20000·t + 19999 of the
  gathered features and of the weight column, multiplies every gathered row by its edge's weight, and writes the
  block back to the same rows. The blocks tile the array, so after the last write-back the whole array is
  `Spec.scaleRows` of the gathered features and the weight column as the region found them.
-/
import proofs.«163131_j16776142258589_1_alg».proof.Proof.Gen.KernelIdeal.Frame
import proofs.«163131_j16776142258589_1_alg».proof.Proof.Spec
import Idealize.ShloMosaic.Lib.Pipeline.Value
import Idealize.ShloMosaic.Lib.ValueIdx

set_option maxRecDepth 16384

noncomputable section

namespace Cert.KernelIdeal.RunValue.EdgeScale2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- One entry of a block: the gathered entry times the weight of its row. -/
theorem pay_apply (x0 : Vec Ideal S20000x64 .f32) (x1 : Vec Ideal S20000x1 .f32) (p : Fin 20000) (q : Fin 64) :
    k2_pay1 (F := Ideal) x0 x1 (ix2 p q) = x0 (ix2 p q) * x1 (ix2 p (0 : Fin 1)) := by
  unfold k2_pay1
  rw [mulf_apply, shapeCast_self, shapeCast_self]
  refine congrArg (x0 (ix2 p q) * ·) ?_
  exact broadcastTo_apply x1 broadcasts_S20000x1_S20000x64 (ix2 p q) (ix2 p (0 : Fin 1)) (fun a => match a with
    | ⟨0, _⟩ => by show p.val = if (20000 : Nat) = 1 then 0 else p.val; rw [if_neg (by decide)]
    | ⟨1, _⟩ => by show 0 = if (1 : Nat) = 1 then 0 else q.val; rw [if_pos rfl])

/-- The same entry against the two arrays the block was cut from: if the block's entry j is the array's entry i, and
    the weight block's row of j is the weight column's row of i, the stored entry is `scaleRows` at i. -/
theorem entry_eq (g : Spec.SE64.Idx → EReal) (w : Spec.SE1.Idx → EReal)
    (x0 : Vec Ideal S20000x64 .f32) (x1 : Vec Ideal S20000x1 .f32) (j : S20000x64.Idx) (i : Spec.SE64.Idx)
    (h0 : x0 j = g i) (h1 : x1 (ix2 (j 0) (0 : Fin 1)) = w (ix2 (i 0) (0 : Fin 1))) :
    k2_pay1 (F := Ideal) x0 x1 j = Spec.scaleRows g w i := by
  obtain ⟨p, q, rfl⟩ : ∃ (p : Fin 20000) (q : Fin 64), j = ix2 p q := ⟨j 0, j 1, eq_ix2 j⟩
  rw [pay_apply]
  unfold Spec.scaleRows
  rw [h0]
  exact congrArg (g i * ·) h1

/-- The printed index maps over the 40 grid points: all three windows sit at block row t, block column 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every block row below 40 is some grid point's. -/
theorem idx_onto : ∀ r : Fin 40, ∃ t : Fin cfg2.N, t.val = r.val :=
  (by decide +kernel : ∀ r : Fin 40, ∃ t : Fin grid2.N, t.val = r.val)

/-- What grid point t writes back is block t of `scaleRows` of the region's two input arrays. -/
theorem flushed_eq (c : Dev nD) (t : Fin cfg2.N) :
    (dat2 V c).flushed 2 t
      = ((cfg2.win 2).blk t).view.read (Elt Ideal) (Spec.scaleRows (V c main_v24) (V c main_v4)) := by
  show (cfg2.win 2).cut (grid2.coords t) ((dat2 V c).after 2 t) = _
  rw [after2_2]
  unfold out2_2
  rw [View.canon_unit_zero origin_eq]
  simp only [View.ld_unit_zero (S := S20000x64) origin_eq, View.ld_unit_zero (S := S20000x1) origin_eq]
  obtain ⟨e00, e01, e10, e11, e20, e21⟩ := idx_facts t
  funext j
  refine entry_eq (V c main_v24) (V c main_v4) (iblk2 V c 0 t) (iblk2 V c 1 t) j (((cfg2.win 2).blk t).view.emb j) ?_ ?_
  · show V c main_v24 (((cfg2.win 0).blk t).view.emb j) = V c main_v24 (((cfg2.win 2).blk t).view.emb j)
    refine congrArg (V c main_v24) (funext fun a => Fin.ext ?_)
    match a with
    | ⟨0, _⟩ => show win2_0.index t (0 : Fin 2) * 20000 + 1 * (j 0).val = win2_2.index t (0 : Fin 2) * 20000 + 1 * (j 0).val; omega
    | ⟨1, _⟩ => show win2_0.index t (1 : Fin 2) * 64 + 1 * (j 1).val = win2_2.index t (1 : Fin 2) * 64 + 1 * (j 1).val; omega
  · show V c main_v4 (((cfg2.win 1).blk t).view.emb (ix2 (j 0) (0 : Fin 1))) = V c main_v4 (ix2 ((((cfg2.win 2).blk t).view.emb j) 0) (0 : Fin 1))
    refine congrArg (V c main_v4) (funext fun a => Fin.ext ?_)
    match a with
    | ⟨0, _⟩ => show win2_1.index t (0 : Fin 2) * 20000 + 1 * (j 0).val = win2_2.index t (0 : Fin 2) * 20000 + 1 * (j 0).val; omega
    | ⟨1, _⟩ => show win2_1.index t (1 : Fin 2) * 1 + 1 * 0 = 0; omega

/-- An entry of the array is in block t iff its row is among the block's 20000 rows and its column among the 64. -/
theorem mem_blk (t : Fin cfg2.N) (i : S800000x64.Idx) :
    i ∈ ((cfg2.win 2).blk t).view.set ↔ ∀ a : Fin 2, win2_2.index t a * S20000x64.size a ≤ (i a).val ∧ (i a).val < win2_2.index t a * S20000x64.size a + S20000x64.size a := by
  show i ∈ ((View.whole main_v25).slice (win2_2.rect t)).set ↔ _
  rw [View.set_slice_whole, Rect.mem_set_unit]
  exact Iff.rfl

/-- Every entry of the array is in the block of the grid point row / 20000. -/
theorem cover (i : S800000x64.Idx) : ∃ t : Fin cfg2.N, (cfg2.win 2).flush t = true ∧ i ∈ ((cfg2.win 2).blk t).view.set := by
  have hi0 : (i 0).val < 800000 := (i 0).isLt
  have hi1 : (i 1).val < 64 := (i 1).isLt
  obtain ⟨t, ht⟩ := idx_onto ⟨(i 0).val / 20000, by omega⟩
  have ht' : t.val = (i 0).val / 20000 := ht
  obtain ⟨e00, e01, e10, e11, e20, e21⟩ := idx_facts t
  refine ⟨t, flush2_2 t, ?_⟩
  rw [mem_blk]
  intro a
  match a with
  | ⟨0, _⟩ => show win2_2.index t (0 : Fin 2) * 20000 ≤ (i 0).val ∧ (i 0).val < win2_2.index t (0 : Fin 2) * 20000 + 20000; omega
  | ⟨1, _⟩ => show win2_2.index t (1 : Fin 2) * 64 ≤ (i 1).val ∧ (i 1).val < win2_2.index t (1 : Fin 2) * 64 + 64; omega

/-- After the region the scaled-message array is `scaleRows` of the gathered features and the weight column. -/
theorem final (c : Dev nD) :
    (dat2 V c).arrAt 2 cfg2.N = Spec.scaleRows (V c main_v24) (V c main_v4) :=
  (dat2 V c).arrAt_eq_of_cover 2 (Spec.scaleRows (V c main_v24) (V c main_v4)) (fun t _ => flushed_eq V c t) cover

end Cert.KernelIdeal.RunValue.EdgeScale2

end
-- ==== Proof.Dense2.lean ====
/-
  The second layer's dense map, read as one array.

  The kernel walks the 50000 node rows in 5 blocks of 10000. At block t it holds rows 10000·t … 10000·t + 9999 of the
  aggregated features together with the whole 64 × 64 weight matrix and the whole bias row; every entry it stores
  is the 64-term dot product of a node row with a weight column, plus that column's bias; and it
  writes the block back to the same rows. The blocks tile the array, so after the last write-back the whole array is
  `Spec.affine` of the aggregated features, the weights and the bias as the region found them.
-/
import proofs.«163131_j16776142258589_1_alg».proof.Proof.Gen.KernelIdeal.Frame
import proofs.«163131_j16776142258589_1_alg».proof.Proof.Spec
import proofs.«163131_j16776142258589_1_alg».proof.Proof.AffinePayload
import Idealize.ShloMosaic.Lib.Pipeline.Value
import Idealize.ShloMosaic.Lib.ValueIdx

set_option maxRecDepth 16384

noncomputable section

open scoped BigOperators

namespace Cert.KernelIdeal.RunValue.Dense2

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin_eq : (![0, 0] : Fin 2 → Nat) = fun _ => 0 := funext fun a => by fin_cases a <;> rfl

/-- One stored entry against the three arrays the blocks were cut from: if row (j 0) of the node block is row (i 0)
    of the node array, column (j 1) of the weight block is column (i 1) of the weight matrix, and the bias block's
    entry over (j 1) is the bias row's over (i 1), the stored entry is the layer's value at i. -/
theorem entry_eq (A : Spec.SN64.Idx → EReal) (W : Spec.SD64.Idx → EReal) (b : Spec.S1D.Idx → EReal)
    (x0 : Vec Ideal S10000x64 .f32) (x1 : Vec Ideal S64x64 .f32) (x2 : Vec Ideal S1x64 .f32)
    (j : S10000x64.Idx) (i : Spec.SN64.Idx)
    (h0 : ∀ k : Fin 64, x0 (ix2 (j 0) k) = A (ix2 (i 0) k))
    (h1 : ∀ k : Fin 64, x1 (ix2 k (j 1)) = W (ix2 k (i 1)))
    (h2 : x2 (ix2 (0 : Fin 1) (j 1)) = b (ix2 (0 : Fin 1) (i 1))) :
    k3_pay1 (F := Ideal) x0 x1 x2 j = Spec.affine A W b i := by
  obtain ⟨p, q, rfl⟩ : ∃ (p : Fin 10000) (q : Fin 64), j = ix2 p q := ⟨j 0, j 1, eq_ix2 j⟩
  have h0' : ∀ k : Fin 64, x0 (ix2 p k) = A (ix2 (i 0) k) := h0
  have h1' : ∀ k : Fin 64, x1 (ix2 k q) = W (ix2 k (i 1)) := h1
  have h2' : x2 (ix2 (0 : Fin 1) q) = b (ix2 (0 : Fin 1) (i 1)) := h2
  rw [affine_pay_apply]
  unfold Spec.affine
  rw [h2', Finset.sum_congr rfl fun k _ => by rw [h0' k, h1' k]]

/-- The printed index maps over the 5 grid points: the node rows and the output sit at block row t; the weight
    matrix and the bias row are the same whole block at every point. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Every block row below 5 is some grid point's. -/
theorem idx_onto : ∀ r : Fin 5, ∃ t : Fin cfg3.N, t.val = r.val :=
  (by decide +kernel : ∀ r : Fin 5, ∃ t : Fin grid3.N, t.val = r.val)

/-- What grid point t writes back is block t of the layer's value on the region's three input arrays. -/
theorem flushed_eq (c : Dev nD) (t : Fin cfg3.N) :
    (dat3 V c).flushed 3 t
      = ((cfg3.win 3).blk t).view.read (Elt Ideal) (Spec.affine (V c main_v28) (V c main_arg4) (V c main_v29)) := by
  show (cfg3.win 3).cut (grid3.coords t) ((dat3 V c).after 3 t) = _
  rw [after3_3]
  unfold out3_3
  rw [View.canon_unit_zero origin_eq]
  simp only [View.ld_unit_zero (S := S10000x64) origin_eq, View.ld_unit_zero (S := S64x64) origin_eq, View.ld_unit_zero (S := S1x64) origin_eq]
  obtain ⟨e00, e01, e10, e11, e20, e21, e30, e31⟩ := idx_facts t
  funext j
  refine entry_eq (V c main_v28) (V c main_arg4) (V c main_v29) (iblk3 V c 0 t) (iblk3 V c 1 t) (iblk3 V c 2 t) j (((cfg3.win 3).blk t).view.emb j) ?_ ?_ ?_
  · intro k
    show V c main_v28 (((cfg3.win 0).blk t).view.emb (ix2 (j 0) k)) = V c main_v28 (ix2 ((((cfg3.win 3).blk t).view.emb j) 0) k)
    refine congrArg (V c main_v28) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * k.val = k.val; omega
  · intro k
    show V c main_arg4 (((cfg3.win 1).blk t).view.emb (ix2 k (j 1))) = V c main_arg4 (ix2 k ((((cfg3.win 3).blk t).view.emb j) 1))
    refine congrArg (V c main_arg4) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_3.index t (1 : Fin 2) * 64 + 1 * (j 1).val; omega
  · show V c main_v29 (((cfg3.win 2).blk t).view.emb (ix2 (0 : Fin 1) (j 1))) = V c main_v29 (ix2 (0 : Fin 1) ((((cfg3.win 3).blk t).view.emb j) 1))
    refine congrArg (V c main_v29) (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An entry of the array is in block t iff its row is among the block's 10000 rows and its column among the 64. -/
theorem mem_blk (t : Fin cfg3.N) (i : S50000x64.Idx) :
    i ∈ ((cfg3.win 3).blk t).view.set ↔ ∀ a : Fin 2, win3_3.index t a * S10000x64.size a ≤ (i a).val ∧ (i a).val < win3_3.index t a * S10000x64.size a + S10000x64.size a := by
  show i ∈ ((View.whole main_v30).slice (win3_3.rect t)).set ↔ _
  rw [View.set_slice_whole, Rect.mem_set_unit]
  exact Iff.rfl

/-- Every entry of the array is in the block of the grid point row / 10000. -/
theorem cover (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto ⟨(i 0).val / 10000, by omega⟩
  have ht' : t.val = (i 0).val / 10000 := ht
  obtain ⟨e00, e01, e10, e11, e20, e21, e30, e31⟩ := idx_facts t
  refine ⟨t, flush3_3 t, ?_⟩
  rw [mem_blk]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- After the region the output array is the layer's value on the aggregated features, weights and bias. -/
theorem final (c : Dev nD) :
    (dat3 V c).arrAt 3 cfg3.N = Spec.affine (V c main_v28) (V c main_arg4) (V c main_v29) :=
  (dat3 V c).arrAt_eq_of_cover 3 (Spec.affine (V c main_v28) (V c main_arg4) (V c main_v29)) (fun t _ => flushed_eq V c t) cover

end Cert.KernelIdeal.RunValue.Dense2

end
-- ==== Proof.Boundaries.lean ====
/-
  The kernel program's result in terms of the launch arrays.

  Between its four regions the program runs host operations: before the first region it slices the edge list into
  source and destination indices, wraps negative source indices, lays the edge weights out as a column and gathers
  the source rows; after each scaling region it sums the scaled rows into their destination nodes (into a zero array)
  and lays a bias out as a row; before the second scaling region it recomputes the wrapped source indices and gathers
  from the hidden features. Walking from the result back to the launch: each region's output array is the
  specification's stage applied to what the region found, and what it found is the host operations' value of what the
  region before left. The index arrays and the weight column are made once and read again later; no region writes
  them, so they are still there.
-/
import proofs.«163131_j16776142258589_1_alg».proof.Proof.Gen.KernelIdeal.Frame
import proofs.«163131_j16776142258589_1_alg».proof.Proof.Spec
import proofs.«163131_j16776142258589_1_alg».proof.Proof.EdgeScale1
import proofs.«163131_j16776142258589_1_alg».proof.Proof.Dense1
import proofs.«163131_j16776142258589_1_alg».proof.Proof.EdgeScale2
import proofs.«163131_j16776142258589_1_alg».proof.Proof.Dense2
import Idealize.ShloMosaic.Lib.StableHlo.Run
import Idealize.ShloMosaic.Lib.Pipeline.Value
import Idealize.ShloMosaic.Lib.ValueIdx

set_option maxRecDepth 16384

noncomputable section

namespace Cert.KernelIdeal.RunValue

open Cert.KernelIdeal Cert.KernelIdeal.Gen Idealize.ShloMosaic Idealize.ShloMosaic.TcCoe Idealize.SL.Sem
open Idealize.ShloMosaic.StableHlo Idealize.ShloMosaic.ValueIdx

/-! ## The index arrays, the gather and the aggregation, as functions of the edge list -/

/-- Every edge's source node. -/
def srcVec (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Every edge's destination node. -/
def dstVec (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The source indices as the gather takes them: a negative index counts back from the 50000 nodes; one per row. -/
def srcIdx (e : (⟨S2x800000, .i32⟩ : BufTy).Contents (Elt Ideal)) : (⟨S800000x1, .i32⟩ : BufTy).Contents (Elt Ideal) :=
  broadcastInDim S800000x1 ![0] bcast_S800000_S800000x1_0
    (select (cmpi .slt (srcVec e) (broadcastInDim S800000 ![] bcast_S_S800000 (constantI S_ 32 0#32)))
      (addi (srcVec e) (broadcastInDim S800000 ![] bcast_S_S800000 (constantI S_ 32 50000#32)))
      (srcVec e))

/-- The destination indices as the scatter takes them: one per row. -/
def dstIdx (e : (⟨S2x800000, .i32⟩ : BufTy).Contents (Elt Ideal)) : (⟨S800000x1, .i32⟩ : BufTy).Contents (Elt Ideal) :=
  broadcastInDim S800000x1 ![0] bcast_S800000_S800000x1_0 (dstVec e)

/-- The kernel program's row gather: every edge's source row of H. -/
def gath (e : (⟨S2x800000, .i32⟩ : BufTy).Contents (Elt Ideal)) :
    (⟨S50000x64, .f32⟩ : BufTy).Contents (Elt Ideal) → (⟨S800000x64, .f32⟩ : BufTy).Contents (Elt Ideal) :=
  fun H => Host.gather gather_S50000x64_S800000x1_S800000x64_1_0_n_n_0_1_164 H (srcIdx e)

/-- The kernel program's aggregation: every edge's message row summed into its destination node's row of a zero array. -/
def agg (e : (⟨S2x800000, .i32⟩ : BufTy).Contents (Elt Ideal)) :
    (⟨S800000x64, .f32⟩ : BufTy).Contents (Elt Ideal) → (⟨S50000x64, .f32⟩ : BufTy).Contents (Elt Ideal) :=
  fun M => Host.scatterAdd scatter_S50000x64_S800000x1_S800000x64_1_0_0_1
    (broadcastInDim S50000x64 ![] bcast_S_S50000x64 (constant (F := Ideal) S_ .f32 0x00000000#32)) (dstIdx e) M

/-! ## Two reshapes are the specification's layouts -/

/-- A length-800000 vector reshaped to a column is the specification's column. -/
theorem col_cast (a : (⟨S800000, .f32⟩ : BufTy).Contents (Elt Ideal)) (h : S800000.ShapeCasts S800000x1) :
    shapeCast S800000x1 a h = Spec.colOf a := by
  funext i
  obtain ⟨r, z, rfl⟩ : ∃ (r : Fin 800000) (z : Fin 1), i = ix2 r z := ⟨i 0, i 1, eq_ix2 i⟩
  refine shapeCast_apply a h (ix2 r z) (ix1 r) ?_
  rewrite [Shape.rowMajor_val_one, Shape.rowMajor_val_two]
  have hz : z.val < 1 := z.isLt
  show r.val = r.val * 1 + z.val
  omega

/-- A length-64 vector reshaped to a row is the specification's row. -/
theorem row_cast (b : (⟨S64, .f32⟩ : BufTy).Contents (Elt Ideal)) (h : S64.ShapeCasts S1x64) :
    shapeCast S1x64 b h = Spec.rowOf b := by
  funext i
  obtain ⟨z, j, rfl⟩ : ∃ (z : Fin 1) (j : Fin 64), i = ix2 z j := ⟨i 0, i 1, eq_ix2 i⟩
  refine shapeCast_apply b h (ix2 z j) (ix1 j) ?_
  rewrite [Shape.rowMajor_val_one, Shape.rowMajor_val_two]
  have hz : z.val < 1 := z.isLt
  show j.val = z.val * 64 + j.val
  omega

variable (m : (ℓ : Loc nD τ sig) → Buf (Elt Ideal) ℓ) (ρ : Dev nD → PrngReg) (c : Dev nD)

/-! ## What the first region finds, and leaves -/

theorem entry0_rows : V1 m ρ c main_v11 = gath (m ((c : Thread nD τ).loc main_arg6)) (m ((c : Thread nD τ).loc main_arg0)) := by
  show StableHlo.after hostOps0 (W0 m ρ c) (Proc.devRef .tc main_v11) = _
  after_results
  rfl

theorem W1_col : W1 m ρ c (Proc.devRef .tc main_v4) = Spec.colOf (m ((c : Thread nD τ).loc main_arg1)) := by
  have h : W1 m ρ c (Proc.devRef .tc main_v4) = shapeCast S800000x1 (m ((c : Thread nD τ).loc main_arg1)) shapeCasts_S800000_S800000x1 := by
    show StableHlo.after hostOps0 (W0 m ρ c) (Proc.devRef .tc main_v4) = _
    after_results
    rfl
  rw [h, col_cast]

theorem W1_src : W1 m ρ c (Proc.devRef .tc main_v1) = srcVec (m ((c : Thread nD τ).loc main_arg6)) := by
  show StableHlo.after hostOps0 (W0 m ρ c) (Proc.devRef .tc main_v1) = _
  after_results
  rfl

theorem W1_dst : W1 m ρ c (Proc.devRef .tc main_v3) = dstVec (m ((c : Thread nD τ).loc main_arg6)) := by
  show StableHlo.after hostOps0 (W0 m ρ c) (Proc.devRef .tc main_v3) = _
  after_results
  rfl

/-- The first region leaves the gathered rows scaled by the edge weights. -/
theorem msgs1 : W2 m ρ c (Proc.devRef .tc main_v12)
    = Spec.scaleRows (gath (m ((c : Thread nD τ).loc main_arg6)) (m ((c : Thread nD τ).loc main_arg0))) (Spec.colOf (m ((c : Thread nD τ).loc main_arg1))) := by
  refine (W2_arr m ρ c 2).trans ?_
  rw [EdgeScale1.final (V1 m ρ) c, entry0_rows]
  exact congrArg (Spec.scaleRows _) (W1_col m ρ c)

/-! ## What the second region (the first dense map) finds, and leaves -/

theorem W2_dst : W2 m ρ c (Proc.devRef .tc main_v3) = dstVec (m ((c : Thread nD τ).loc main_arg6)) := by
  rw [W2_of_ne m ρ c main_v3 (by decide)]
  exact W1_dst m ρ c

theorem W2_src : W2 m ρ c (Proc.devRef .tc main_v1) = srcVec (m ((c : Thread nD τ).loc main_arg6)) := by
  rw [W2_of_ne m ρ c main_v1 (by decide)]
  exact W1_src m ρ c

theorem W2_col : W2 m ρ c (Proc.devRef .tc main_v4) = Spec.colOf (m ((c : Thread nD τ).loc main_arg1)) := by
  -- the weight column is one of the first region's INPUT arrays: it ends the region as it entered
  refine ((W2_arr m ρ c 1).trans (((dat0 (V1 m ρ) c).arrAt_in 1 rfl _).trans (A_eq0 (V1 m ρ) c 1))).trans ?_
  exact W1_col m ρ c

theorem entry1_rows : V3 m ρ c main_v15 = agg (m ((c : Thread nD τ).loc main_arg6)) (W2 m ρ c (Proc.devRef .tc main_v12)) := by
  show StableHlo.after hostOps1 (W2 m ρ c) (Proc.devRef .tc main_v15) = _
  after_results
  rw [W2_dst]
  rfl

theorem entry1_weights : V3 m ρ c main_arg2 = m ((c : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results

theorem entry1_bias : V3 m ρ c main_v16 = Spec.rowOf (m ((c : Thread nD τ).loc main_arg3)) := by
  have h : V3 m ρ c main_v16 = shapeCast S1x64 (W2 m ρ c (Proc.devRef .tc main_arg3)) shapeCasts_S64_S1x64 := by
    show StableHlo.after hostOps1 (W2 m ρ c) (Proc.devRef .tc main_v16) = _
    after_results
    rfl
  have h3 : W2 m ρ c (Proc.devRef .tc main_arg3) = m ((c : Thread nD τ).loc main_arg3) := by
    rw [W2_of_ne m ρ c main_arg3 (by decide)]
    show StableHlo.after hostOps0 (W0 m ρ c) (Proc.devRef .tc main_arg3) = _
    after_results
  rw [h, h3, row_cast]

/-- The second region leaves the hidden features: the first dense map, clamped, of the aggregated scaled rows. -/
theorem hidden : W4 m ρ c (Proc.devRef .tc main_v17)
    = Spec.affineRelu (agg (m ((c : Thread nD τ).loc main_arg6))
        (Spec.scaleRows (gath (m ((c : Thread nD τ).loc main_arg6)) (m ((c : Thread nD τ).loc main_arg0))) (Spec.colOf (m ((c : Thread nD τ).loc main_arg1)))))
      (m ((c : Thread nD τ).loc main_arg2)) (Spec.rowOf (m ((c : Thread nD τ).loc main_arg3))) := by
  refine (W4_arr m ρ c 3).trans ?_
  rw [Dense1.final (V3 m ρ) c, entry1_rows, entry1_weights, entry1_bias, msgs1]

/-! ## What the third region (the second scaling) finds, and leaves -/

theorem W4_src : W4 m ρ c (Proc.devRef .tc main_v1) = srcVec (m ((c : Thread nD τ).loc main_arg6)) := by
  rw [W4_of_ne m ρ c main_v1 (by decide)]
  show StableHlo.after hostOps1 (W2 m ρ c) (Proc.devRef .tc main_v1) = _
  after_results
  exact W2_src m ρ c

theorem W4_dst : W4 m ρ c (Proc.devRef .tc main_v3) = dstVec (m ((c : Thread nD τ).loc main_arg6)) := by
  rw [W4_of_ne m ρ c main_v3 (by decide)]
  show StableHlo.after hostOps1 (W2 m ρ c) (Proc.devRef .tc main_v3) = _
  after_results
  exact W2_dst m ρ c

theorem W4_col : W4 m ρ c (Proc.devRef .tc main_v4) = Spec.colOf (m ((c : Thread nD τ).loc main_arg1)) := by
  rw [W4_of_ne m ρ c main_v4 (by decide)]
  show StableHlo.after hostOps1 (W2 m ρ c) (Proc.devRef .tc main_v4) = _
  after_results
  exact W2_col m ρ c

theorem entry2_rows : V5 m ρ c main_v24 = gath (m ((c : Thread nD τ).loc main_arg6)) (W4 m ρ c (Proc.devRef .tc main_v17)) := by
  show StableHlo.after hostOps2 (W4 m ρ c) (Proc.devRef .tc main_v24) = _
  after_results
  rw [W4_src]
  rfl

theorem entry2_col : V5 m ρ c main_v4 = Spec.colOf (m ((c : Thread nD τ).loc main_arg1)) := by
  show StableHlo.after hostOps2 (W4 m ρ c) (Proc.devRef .tc main_v4) = _
  after_results
  exact W4_col m ρ c

/-- The third region leaves the rows gathered from the hidden features, scaled by the edge weights. -/
theorem msgs2 : W6 m ρ c (Proc.devRef .tc main_v25)
    = Spec.scaleRows (gath (m ((c : Thread nD τ).loc main_arg6)) (W4 m ρ c (Proc.devRef .tc main_v17))) (Spec.colOf (m ((c : Thread nD τ).loc main_arg1))) := by
  refine (W6_arr m ρ c 2).trans ?_
  rw [EdgeScale2.final (V5 m ρ) c, entry2_rows, entry2_col]

/-! ## What the fourth region (the second dense map) finds, and leaves -/

theorem W6_dst : W6 m ρ c (Proc.devRef .tc main_v3) = dstVec (m ((c : Thread nD τ).loc main_arg6)) := by
  rw [W6_of_ne m ρ c main_v3 (by decide)]
  show StableHlo.after hostOps2 (W4 m ρ c) (Proc.devRef .tc main_v3) = _
  after_results
  exact W4_dst m ρ c

/-- An argument array that no host operation and no region writes is, three regions in, still the launch array. -/
theorem W6_keep (b : Ref sig .tc) (h0 : ∀ w, Pipeline.arrRef spec0 w ≠ b) (h1 : ∀ w, Pipeline.arrRef spec1 w ≠ b) (h2 : ∀ w, Pipeline.arrRef spec2 w ≠ b)
    (k2 : StableHlo.after hostOps2 (W4 m ρ c) (Proc.devRef .tc b) = W4 m ρ c (Proc.devRef .tc b))
    (k1 : StableHlo.after hostOps1 (W2 m ρ c) (Proc.devRef .tc b) = W2 m ρ c (Proc.devRef .tc b))
    (k0 : StableHlo.after hostOps0 (W0 m ρ c) (Proc.devRef .tc b) = W0 m ρ c (Proc.devRef .tc b)) :
    W6 m ρ c (Proc.devRef .tc b) = W0 m ρ c (Proc.devRef .tc b) :=
  calc W6 m ρ c (Proc.devRef .tc b)
    _ = W5 m ρ c (Proc.devRef .tc b) := W6_of_ne m ρ c b h2
    _ = W4 m ρ c (Proc.devRef .tc b) := k2
    _ = W3 m ρ c (Proc.devRef .tc b) := W4_of_ne m ρ c b h1
    _ = W2 m ρ c (Proc.devRef .tc b) := k1
    _ = W1 m ρ c (Proc.devRef .tc b) := W2_of_ne m ρ c b h0
    _ = W0 m ρ c (Proc.devRef .tc b) := k0

theorem entry3_rows : V7 m ρ c main_v28 = agg (m ((c : Thread nD τ).loc main_arg6)) (W6 m ρ c (Proc.devRef .tc main_v25)) := by
  show StableHlo.after hostOps3 (W6 m ρ c) (Proc.devRef .tc main_v28) = _
  after_results
  rw [W6_dst]
  rfl

theorem entry3_weights : V7 m ρ c main_arg4 = m ((c : Thread nD τ).loc main_arg4) := by
  show StableHlo.after hostOps3 (W6 m ρ c) (Proc.devRef .tc main_arg4) = _
  after_results
  exact W6_keep m ρ c main_arg4 (by decide) (by decide) (by decide) (by after_results) (by after_results) (by after_results)

theorem entry3_bias : V7 m ρ c main_v29 = Spec.rowOf (m ((c : Thread nD τ).loc main_arg5)) := by
  have h : V7 m ρ c main_v29 = shapeCast S1x64 (W6 m ρ c (Proc.devRef .tc main_arg5)) shapeCasts_S64_S1x64 := by
    show StableHlo.after hostOps3 (W6 m ρ c) (Proc.devRef .tc main_v29) = _
    after_results
    rfl
  have h5 : W6 m ρ c (Proc.devRef .tc main_arg5) = m ((c : Thread nD τ).loc main_arg5) :=
    W6_keep m ρ c main_arg5 (by decide) (by decide) (by decide) (by after_results) (by after_results) (by after_results)
  rw [h, h5, row_cast]

/-! ## The result -/

/-- The result array, as the last boundary holds it, is the specification's network of the kernel program's gather
    and aggregation, applied to the launch arrays. -/
theorem result : W8 m ρ c (Proc.devRef .tc main_v30)
    = Spec.network (gath (m ((c : Thread nD τ).loc main_arg6))) (agg (m ((c : Thread nD τ).loc main_arg6)))
        (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5)) := by
  refine (W8_arr m ρ c 3).trans ?_
  rw [Dense2.final (V7 m ρ) c, entry3_rows, entry3_weights, entry3_bias, msgs2, hidden]
  rfl

end Cert.KernelIdeal.RunValue

end
-- ==== Proof.RefStages.lean ====
/-
  The reference's three stages are the specification's.

  The reference lays the edge weights out as a column and then across the 64 features before it multiplies (weight
  first, gathered entry second: the product commutes); it multiplies the aggregated features by the weight matrix as
  one 64-term contraction per entry and adds the bias laid out as a row and then down the 50000 node rows; and its
  clamp is a maximum with a zero array.
-/
import proofs.«163131_j16776142258589_1_alg».proof.Proof.Gen.ReferenceIdeal
import proofs.«163131_j16776142258589_1_alg».proof.Proof.Gen.ReferenceIdeal.Read
import proofs.«163131_j16776142258589_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-- The weights broadcast to a column are the specification's column. -/
theorem col_eq (a : FVec Ideal S800000 .f32) :
    broadcastInDim S800000x1 ![0] bcast_S800000_S800000x1_0 a = Spec.colOf a := by
  funext i
  obtain ⟨e, z, rfl⟩ : ∃ (e : Fin 800000) (z : Fin 1), i = ix2 e z := ⟨i 0, i 1, eq_ix2 i⟩
  -- the column's entry (e, z) reads the weights at the coordinate the map [0] names: e
  refine broadcastInDim_apply _ bcast_S800000_S800000x1_0 a (ix2 e z) (ix1 e) fun d => ?_
  match d with
  | ⟨0, _⟩ => show e.val = if (800000 : Nat) = 1 then 0 else e.val; rw [if_neg (by decide)]

/-- A bias broadcast to a row is the specification's row. -/
theorem row_eq (b : FVec Ideal S64 .f32) :
    broadcastInDim S1x64 ![1] bcast_S64_S1x64_1 b = Spec.rowOf b := by
  funext i
  obtain ⟨z, j, rfl⟩ : ∃ (z : Fin 1) (j : Fin 64), i = ix2 z j := ⟨i 0, i 1, eq_ix2 i⟩
  -- the row's entry (z, j) reads the bias at the coordinate the map [1] names: j
  refine broadcastInDim_apply _ bcast_S64_S1x64_1 b (ix2 z j) (ix1 j) fun d => ?_
  match d with
  | ⟨0, _⟩ => show j.val = if (64 : Nat) = 1 then 0 else j.val; rw [if_neg (by decide)]

/-- The weight column spread over the features, times the gathered rows, is the specification's edge scaling. -/
theorem scale_law (wc : FVec Ideal S800000x1 .f32) (g : FVec Ideal S800000x64 .f32) :
    mulf (broadcastInDim S800000x64 ![0, 1] bcast_S800000x1_S800000x64_0_1 wc) g = Spec.scaleRows g wc := by
  funext i
  obtain ⟨e, d, rfl⟩ : ∃ (e : Fin 800000) (d : Fin 64), i = ix2 e d := ⟨i 0, i 1, eq_ix2 i⟩
  rw [mulf_apply, Spec.scaleRows_apply]
  -- the column spread over the features reads w(e, 0) at (e, d): the unit axis is read at 0
  have hb : broadcastInDim S800000x64 ![0, 1] bcast_S800000x1_S800000x64_0_1 wc (ix2 e d) = wc (ix2 e (0 : Fin 1)) :=
    broadcastInDim_apply _ bcast_S800000x1_S800000x64_0_1 wc (ix2 e d) (ix2 e (0 : Fin 1)) fun a => by
      match a with
      | ⟨0, _⟩ => show e.val = if (800000 : Nat) = 1 then 0 else e.val; rw [if_neg (by decide)]
      | ⟨1, _⟩ => show 0 = if (1 : Nat) = 1 then 0 else d.val; rw [if_pos rfl]
  rw [hb]
  exact mul_comm _ _

/-- The contraction with the weight matrix plus the bias row spread down the nodes is the specification's dense map. -/
theorem affine_law (A : FVec Ideal S50000x64 .f32) (W : FVec Ideal S64x64 .f32) (br : FVec Ideal S1x64 .f32) :
    addf (Host.dotGeneral dot_S50000x64_S64x64_S50000x64_1_0_0_1_n_n none A W)
        (broadcastInDim S50000x64 ![0, 1] bcast_S1x64_S50000x64_0_1 br)
      = Spec.affine A W br := by
  funext i
  obtain ⟨n, j, rfl⟩ : ∃ (n : Fin 50000) (j : Fin 64), i = ix2 n j := ⟨i 0, i 1, eq_ix2 i⟩
  rw [addf_apply, Spec.affine_apply]
  -- the bias row spread down the nodes reads b(0, j) at (n, j)
  have hb : broadcastInDim S50000x64 ![0, 1] bcast_S1x64_S50000x64_0_1 br (ix2 n j) = br (ix2 (0 : Fin 1) j) :=
    broadcastInDim_apply _ bcast_S1x64_S50000x64_0_1 br (ix2 n j) (ix2 (0 : Fin 1) j) fun a => by
      match a with
      | ⟨0, _⟩ => show 0 = if (1 : Nat) = 1 then 0 else n.val; rw [if_pos rfl]
      | ⟨1, _⟩ => show j.val = if (64 : Nat) = 1 then 0 else j.val; rw [if_neg (by decide)]
  rw [hb]
  -- the contraction at (n, j): a sum over the one contracted axis, re-indexed by its coordinate k < 64
  have hd : Host.dotGeneral dot_S50000x64_S64x64_S50000x64_1_0_0_1_n_n none A W (ix2 n j)
      = ∑ k : Fin 64, A (ix2 n k) * W (ix2 k j) := by
    simp only [Host.dotGeneral]
    rw [Ideal.dotGeneral_apply,
      ← Equiv.sum_comp (ValueIdx.contrEquiv1 dot_S50000x64_S64x64_S50000x64_1_0_0_1_n_n 64 rfl rfl).symm]
    refine Finset.sum_congr rfl fun k _ => ?_
    have hk := ValueIdx.contrEquiv1_symm_val dot_S50000x64_S64x64_S50000x64_1_0_0_1_n_n 64 rfl rfl k
    -- the left operand is read at (n, k) …
    have el : dot_S50000x64_S64x64_S50000x64_1_0_0_1_n_n.lhsIdx (ix2 n j)
        ((ValueIdx.contrEquiv1 dot_S50000x64_S64x64_S50000x64_1_0_0_1_n_n 64 rfl rfl).symm k) = ix2 n k :=
      funext fun a => Fin.ext (by
        match a with
        | ⟨0, _⟩ => exact lhs_main_v17_0 _ _
        | ⟨1, _⟩ => exact (lhs_main_v17_1 _ _).trans hk)
    -- … and the right one at (k, j)
    have er : dot_S50000x64_S64x64_S50000x64_1_0_0_1_n_n.rhsIdx (ix2 n j)
        ((ValueIdx.contrEquiv1 dot_S50000x64_S64x64_S50000x64_1_0_0_1_n_n 64 rfl rfl).symm k) = ix2 k j :=
      funext fun a => Fin.ext (by
        match a with
        | ⟨0, _⟩ => exact (rhs_main_v17_0 _ _).trans hk
        | ⟨1, _⟩ => exact rhs_main_v17_1 _ _)
    rw [el, er]
  rw [hd]

/-- The maximum with the zero array is the specification's clamp. -/
theorem relu_law (A : FVec Ideal S50000x64 .f32) (W : FVec Ideal S64x64 .f32) (br : FVec Ideal S1x64 .f32) :
    maximumf (Spec.affine A W br) (broadcastInDim S50000x64 ![] bcast_S_S50000x64 (constant (F := Ideal) S_ .f32 0x00000000#32))
      = Spec.affineRelu A W br := by
  funext i
  rw [maximumf_apply]
  -- the zero array: a rank-0 constant spread over every entry, read as the extended real 0
  have hz : broadcastInDim S50000x64 ![] bcast_S_S50000x64 (constant (F := Ideal) S_ .f32 0x00000000#32) i = 0 := by
    refine (broadcastInDim_apply _ bcast_S_S50000x64 (constant (F := Ideal) S_ .f32 0x00000000#32) i
      (fun a => a.elim0) fun a => a.elim0).trans ?_
    rw [constant_apply]
    exact Ideal.ofBits_zero_f32
  rw [hz]
  rfl

end Cert.ReferenceIdeal.RefValue

end
-- ==== Proof.RefNetwork.lean ====
/-
  The reference's result is the specification's two-layer network of its own gather and its own aggregation.

  The reference gathers with the wrapped source indices and aggregates into a zero array at the destination indices,
  the same pair in both layers (the second layer recomputes the same index arrays from the same edge list). Stage by
  stage its result is then: scale, aggregate, dense map with clamp, gather, scale, aggregate, dense map.
-/
import proofs.«163131_j16776142258589_1_alg».proof.Proof.Gen.ReferenceIdeal.Read
import proofs.«163131_j16776142258589_1_alg».proof.Proof.Spec
import proofs.«163131_j16776142258589_1_alg».proof.Proof.RefStages

noncomputable section

namespace Cert.ReferenceIdeal.RefValue

open Cert.ReferenceIdeal Cert.ReferenceIdeal.Gen Cert.ReferenceIdeal.Read Idealize.ShloMosaic Idealize.ShloMosaic.ValueIdx

/-- The reference's row gather: every edge's source row of H, the source index wrapped when negative. -/
def gath (e : (⟨S2x800000, .i32⟩ : BufTy).Contents (Elt Ideal)) :
    (⟨S50000x64, .f32⟩ : BufTy).Contents (Elt Ideal) → (⟨S800000x64, .f32⟩ : BufTy).Contents (Elt Ideal) :=
  fun H => Host.gather gather_S50000x64_S800000x1_S800000x64_1_0_n_n_0_1_164 H (val_main_v10 (F := Ideal) e)

/-- The reference's aggregation: every edge's message row summed into its destination node's row of a zero array. -/
def agg (e : (⟨S2x800000, .i32⟩ : BufTy).Contents (Elt Ideal)) :
    (⟨S800000x64, .f32⟩ : BufTy).Contents (Elt Ideal) → (⟨S50000x64, .f32⟩ : BufTy).Contents (Elt Ideal) :=
  fun M => Host.scatterAdd (F := Ideal) (φ := .f32) scatter_S50000x64_S800000x1_S800000x64_1_0_0_1 (val_main_v14 (F := Ideal)) (val_main_v15 (F := Ideal) e) M

/-! ## The second layer's index arrays and zero array are the first layer's

The second layer computes the wrapped source indices, the destination indices and the zero array again, by the same
operations of the same edge list; stage by stage the two computations are the same term. -/

/-- The wrapped source indices, computed again. -/
theorem src_again (x6 : (⟨S2x800000, .i32⟩ : BufTy).Contents (Elt Ideal)) :
    val_main_v28 (F := Ideal) x6 = val_main_v10 (F := Ideal) x6 := by
  unfold val_main_v28 val_main_v27 val_main_v24 val_main_v26 val_main_v23 val_main_v25 val_main_c_1 val_main_c_2
  unfold val_main_v10 val_main_v9 val_main_v6 val_main_v8 val_main_v5 val_main_v7 val_main_c val_main_c_0
  rfl

/-- The destination indices, computed again. -/
theorem dst_again (x6 : (⟨S2x800000, .i32⟩ : BufTy).Contents (Elt Ideal)) :
    val_main_v33 (F := Ideal) x6 = val_main_v15 (F := Ideal) x6 := by
  unfold val_main_v33 val_main_v15
  rfl

/-- The zero array, made again. -/
theorem zero_again : val_main_v32 (F := Ideal) = val_main_v14 (F := Ideal) := by
  unfold val_main_v32 val_main_v14 val_main_cst_3 val_main_cst
  rfl

/-! ## Stage by stage -/

/-- The first layer's messages: the input's gathered rows, each scaled by its edge's weight. -/
theorem msgs₁ (x0 : (⟨S50000x64, .f32⟩ : BufTy).Contents (Elt Ideal)) (x1 : (⟨S800000, .f32⟩ : BufTy).Contents (Elt Ideal))
    (x6 : (⟨S2x800000, .i32⟩ : BufTy).Contents (Elt Ideal)) :
    val_main_v13 (F := Ideal) x0 x1 x6 = Spec.scaleRows (gath x6 x0) (Spec.colOf x1) := by
  unfold val_main_v13 val_main_v12 val_main_v4 val_main_v11
  rw [col_eq, scale_law]
  rfl

/-- The hidden features: the first layer's messages aggregated, through the first dense map and its clamp. -/
theorem hidden (x0 : (⟨S50000x64, .f32⟩ : BufTy).Contents (Elt Ideal)) (x1 : (⟨S800000, .f32⟩ : BufTy).Contents (Elt Ideal))
    (x2 : (⟨S64x64, .f32⟩ : BufTy).Contents (Elt Ideal)) (x3 : (⟨S64, .f32⟩ : BufTy).Contents (Elt Ideal))
    (x6 : (⟨S2x800000, .i32⟩ : BufTy).Contents (Elt Ideal)) :
    val_main_v21 (F := Ideal) x0 x1 x2 x3 x6
      = Spec.affineRelu (agg x6 (Spec.scaleRows (gath x6 x0) (Spec.colOf x1))) x2 (Spec.rowOf x3) := by
  unfold val_main_v21 val_main_v20 val_main_v17 val_main_v19 val_main_v18 val_main_call0_v0 val_main_call0_cst
  rw [affine_law, relu_law, row_eq]
  unfold val_main_v16
  rw [msgs₁]
  rfl

/-- The second layer's messages: the hidden features' gathered rows, scaled by the same weights. -/
theorem msgs₂ (x0 : (⟨S50000x64, .f32⟩ : BufTy).Contents (Elt Ideal)) (x1 : (⟨S800000, .f32⟩ : BufTy).Contents (Elt Ideal))
    (x2 : (⟨S64x64, .f32⟩ : BufTy).Contents (Elt Ideal)) (x3 : (⟨S64, .f32⟩ : BufTy).Contents (Elt Ideal))
    (x6 : (⟨S2x800000, .i32⟩ : BufTy).Contents (Elt Ideal)) :
    val_main_v31 (F := Ideal) x0 x1 x2 x3 x6
      = Spec.scaleRows (gath x6 (Spec.affineRelu (agg x6 (Spec.scaleRows (gath x6 x0) (Spec.colOf x1))) x2 (Spec.rowOf x3)))
          (Spec.colOf x1) := by
  unfold val_main_v31 val_main_v30 val_main_v22 val_main_v29
  rw [col_eq, scale_law, src_again, hidden]
  rfl

/-- The reference's result, as the last generated stage names it, is the network of that gather and aggregation. -/
theorem ref_network (x0 : (⟨S50000x64, .f32⟩ : BufTy).Contents (Elt Ideal)) (x1 : (⟨S800000, .f32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S2x800000, .i32⟩ : BufTy).Contents (Elt Ideal)) :
    val_main_v38 (F := Ideal) x0 x1 x2 x3 x4 x5 x6 = Spec.network (gath x6) (agg x6) x0 x1 x2 x3 x4 x5 := by
  unfold val_main_v38 val_main_v35 val_main_v37 val_main_v36
  rw [affine_law, row_eq]
  unfold val_main_v34
  rw [msgs₂, dst_again, zero_again]
  rfl

end Cert.ReferenceIdeal.RefValue

end
-- ==== Proof.lean ====
/-
  A two-layer graph convolution computed by four tiled kernels among host gathers and scatters equals its array-level
  reference, entry by entry over the extended reals.

  One layer gathers the source node's 64 features for each of the 800000 edges, scales each gathered row by its
  edge's weight, sums the scaled rows into the 50000 destination nodes, and applies a dense affine map (a 64-term dot
  product per entry plus a bias); the first layer clamps at zero, the second does not. The kernel program runs the
  scaling and the dense map as tiled regions (40 blocks of 20000 edges; 5 blocks of 10000 nodes) and leaves the
  gather and the accumulating scatter to host operations; the reference does everything as whole-array operations.

  The two programs gather and aggregate with the same operations of the same index arrays (`gath_eq`, `agg_eq`), so
  those are carried as functions and never opened. What differs is layout and order inside the three remaining
  stages, and each side is shown to compute the specification's stage (Proof/Spec.lean):
    * scaling — the kernel multiplies gathered entry by weight, the reference weight by gathered entry: the product
      of extended reals commutes;
    * the dense map — the kernel multiplies into a zero accumulator block by block, the reference contracts whole
      arrays: both are the same 64-term sum per entry, a zero summand changing nothing, and the blocks tile the rows;
    * the clamp — a maximum with a zero array on either side.
  No step distributes a product over a sum or cancels, so finiteness of the inputs is never used.

  The kernel's result array is read off its run block by block (Proof/EdgeScale1, Dense1, EdgeScale2, Dense2), the
  arrays between the regions by walking the host operations (Proof/Boundaries.lean), the reference's result stage by
  stage (Proof/RefStages.lean, Proof/RefNetwork.lean). The three frames are the generated runs; the idealization
  changed nothing in the kernel program, so there is nothing to preserve.
-/
import proofs.«163131_j16776142258589_1_alg».proof.Defs
import proofs.«163131_j16776142258589_1_alg».proof.Proof.Gen.Kernel
import proofs.«163131_j16776142258589_1_alg».proof.Proof.Gen.Kernel.Frame
import proofs.«163131_j16776142258589_1_alg».proof.Proof.Gen.KernelIdeal
import proofs.«163131_j16776142258589_1_alg».proof.Proof.Gen.KernelIdeal.Frame
import proofs.«163131_j16776142258589_1_alg».proof.Proof.Gen.ReferenceIdeal
import proofs.«163131_j16776142258589_1_alg».proof.Proof.Gen.Pre_finite_inputs
import proofs.«163131_j16776142258589_1_alg».proof.Proof.Gen.ReferenceIdeal.Run
import proofs.«163131_j16776142258589_1_alg».proof.Proof.Gen.ReferenceIdeal.Read
import proofs.«163131_j16776142258589_1_alg».proof.Proof.KernelRun
import proofs.«163131_j16776142258589_1_alg».proof.Proof.Boundaries
import proofs.«163131_j16776142258589_1_alg».proof.Proof.RefNetwork
import Idealize.ShloMosaic.Adequacy
import Idealize.ShloMosaic.Init

noncomputable section

namespace Cert.Proof

open Idealize.ShloMosaic Idealize.SL.Sem

/-- Both programs gather with the same function of the edge list: the same gather of the same wrapped source indices. -/
theorem gath_eq (e : (⟨Cert.ReferenceIdeal.S2x800000, .i32⟩ : BufTy).Contents (Elt Ideal)) :
    Cert.ReferenceIdeal.RefValue.gath e = Cert.KernelIdeal.RunValue.gath e := rfl

/-- Both programs aggregate with the same function of the edge list: the same accumulating scatter into a zero array
    at the same destination indices. -/
theorem agg_eq (e : (⟨Cert.ReferenceIdeal.S2x800000, .i32⟩ : BufTy).Contents (Elt Ideal)) :
    Cert.ReferenceIdeal.RefValue.agg e = Cert.KernelIdeal.RunValue.agg e := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the seven arguments both programs end with the specification's network of the (shared)
    gather and aggregation applied to those arguments. -/
theorem algebraic : Cert.algebraic_KernelIdeal_ReferenceIdeal := by
  intro m ρ m' ρ' _ hagree
  refine ⟨fun c => Cert.Spec.network
      (Cert.KernelIdeal.RunValue.gath (m ((c.tc : Thread Cert.KernelIdeal.nD Cert.KernelIdeal.τ).loc Cert.KernelIdeal.main_arg6)))
      (Cert.KernelIdeal.RunValue.agg (m ((c.tc : Thread Cert.KernelIdeal.nD Cert.KernelIdeal.τ).loc Cert.KernelIdeal.main_arg6)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.RunValue.result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6⟩ := hagree c
    rw [Cert.ReferenceIdeal.Read.val_main_v38_eq, Cert.ReferenceIdeal.RefValue.ref_network, gath_eq, agg_eq,
      h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
